-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x4096 : S_.BroadcastsInDim S8192x4096 (![] : Fin 0 → Fin S8192x4096.rank)
  bcast_S8192x1_S8192x4096_0_1 : S8192x1.BroadcastsInDim S8192x4096 (![0, 1] : Fin 2 → Fin S8192x4096.rank)

variable [Facts₀]

class Facts : Prop extends Facts₀ where

variable [Facts]
-- ==== Proof.Reflect.lean ====
/-
  The Householder reflection both programs compute, as one function of the two argument arrays over the
  extended reals.  For a row r of v and z let
      s(r) = sum over k of v[r,k] * z[r,k]        (the row's inner product)
      n(r) = sum over k of v[r,k] * v[r,k]        (the row's squared norm)
  and q(r) = s(r) / n(r), the quotient of the ideal instance (total: its value at n(r) = 0 or at an infinite
  n(r) is whatever that quotient gives, and both programs take the SAME quotient of the SAME two sums, so no
  case of it is ever opened).  The result is
      out[r,c] = z[r,c] - v[r,c] * (2 * q(r)).
  The kernel multiplies v[r,c] by (2 * q(r)); the reference multiplies (2 * v[r,c]) by q(r).  The product of
  extended reals is commutative and associative with no side condition, so the two are equal everywhere,
  infinite entries included: no finiteness of the inputs is used.

  A block of 256 consecutive rows of the arrays is again a pair of arrays of the same kind, and the
  coefficient of one of its rows is the coefficient of the row of the whole array it came from
  (`coef_congr`): a row's coefficient depends on that row alone.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Reflect

/-- The scalar two, as both programs spell it. -/
abbrev two : EReal := Ideal.ofBits .f32 0x40000000#32

/-- Row `r`'s coefficient: twice the quotient of the row's inner product v.z by its squared norm v.v. -/
def coef {R C : Nat} (v z : (⟨2, ![R, C]⟩ : Shape).Idx → EReal) (r : Fin R) : EReal :=
  two * Ideal.div (∑ k : Fin C, v (ix2 r k) * z (ix2 r k)) (∑ k : Fin C, v (ix2 r k) * v (ix2 r k))

/-- The reflection at row `r`, column `q`: z minus v times the row's coefficient. -/
def reflectAt {R C : Nat} (v z : (⟨2, ![R, C]⟩ : Shape).Idx → EReal) (r : Fin R) (q : Fin C) : EReal :=
  z (ix2 r q) - v (ix2 r q) * coef v z r

/-- The whole [8192, 4096] result array. -/
def reflect (v z : (⟨2, ![8192, 4096]⟩ : Shape).Idx → EReal) : (⟨2, ![8192, 4096]⟩ : Shape).Idx → EReal :=
  fun i => reflectAt v z (i 0) (i 1)

/-- A row's coefficient depends on that row of v and of z alone: two pairs of arrays that agree along a row
    of each have the same coefficient there. -/
theorem coef_congr {R R' C : Nat} (v z : (⟨2, ![R, C]⟩ : Shape).Idx → EReal) (v' z' : (⟨2, ![R', C]⟩ : Shape).Idx → EReal)
    (r : Fin R) (r' : Fin R') (hv : ∀ k : Fin C, v (ix2 r k) = v' (ix2 r' k)) (hz : ∀ k : Fin C, z (ix2 r k) = z' (ix2 r' k)) :
    coef v z r = coef v' z' r' := by
  unfold coef
  rw [Finset.sum_congr rfl (fun k _ => by rw [hv k, hz k] : ∀ k ∈ (Finset.univ : Finset (Fin C)), v (ix2 r k) * z (ix2 r k) = v' (ix2 r' k) * z' (ix2 r' k)),
    Finset.sum_congr rfl (fun k _ => by rw [hv k] : ∀ k ∈ (Finset.univ : Finset (Fin C)), v (ix2 r k) * v (ix2 r k) = v' (ix2 r' k) * v' (ix2 r' k))]

/-- So the reflection of a block at one of its entries is the reflection of the whole arrays at the entry it
    came from, when the block's row is that row of the arrays. -/
theorem reflectAt_congr {R R' C : Nat} (v z : (⟨2, ![R, C]⟩ : Shape).Idx → EReal) (v' z' : (⟨2, ![R', C]⟩ : Shape).Idx → EReal)
    (r : Fin R) (r' : Fin R') (q : Fin C) (hv : ∀ k : Fin C, v (ix2 r k) = v' (ix2 r' k)) (hz : ∀ k : Fin C, z (ix2 r k) = z' (ix2 r' k)) :
    reflectAt v z r q = reflectAt v' z' r' q := by
  unfold reflectAt
  rw [coef_congr v z v' z' r r' hv hz, hv q, hz q]

/-- The one law between the two programs: scaling v by two and then by the quotient is scaling v by twice the
    quotient.  Commutativity and associativity of the product of extended reals; nothing about finiteness. -/
theorem scale_regroup (a q : EReal) : (two * a) * q = a * (two * q) := by
  rw [mul_comm two a, mul_assoc]

end Cert.Reflect

end
-- ==== Proof.RefReflect.lean ====
/-
  The reference, read one operation at a time at an entry (r, q) of its result: the two host sums are the
  row's inner product and squared norm (each from a zero initial value), their quotient is broadcast along
  the row, the scalar two is broadcast over the whole array and multiplied into v first, and the product is
  taken off z.  That is the reflection of `Reflect.lean` with the factors of the product grouped the other
  way: `scale_regroup`.
-/
import proofs.«163049_j2602750181657_1_alg».proof.Proof.Gen.ReferenceIdeal.Read
import proofs.«163049_j2602750181657_1_alg».proof.Proof.Reflect

noncomputable section

open Idealize.ShloMosaic Idealize.ShloMosaic.ValueIdx
open scoped BigOperators

namespace Cert.ReferenceIdeal.RefValue

open Cert.ReferenceIdeal Cert.ReferenceIdeal.Read Cert.Reflect

/-- Where the reference's two row sums read their operand at the k-th term, seen from entry (r, q) of the
    result: row r, column k. -/
theorem sum_idx_vz (r : Fin 8192) (q : Fin 4096) (k : Fin 4096) :
    idx_main_v1 (idx_main_v2 (idx_main_v9 (ix2 r q))) k = ix2 r k :=
  funext fun a => Fin.ext (by match a with | ⟨0, _⟩ => rfl | ⟨1, _⟩ => rfl)

theorem sum_idx_vv (r : Fin 8192) (q : Fin 4096) (k : Fin 4096) :
    idx_main_v4 (idx_main_v5 (idx_main_v9 (ix2 r q))) k = ix2 r k :=
  funext fun a => Fin.ext (by match a with | ⟨0, _⟩ => rfl | ⟨1, _⟩ => rfl)

/-- The reference's result array is the reflection of its two arguments. -/
theorem reference_eq (x0 x1 : (⟨S8192x4096, .f32⟩ : BufTy).Contents (Elt Ideal)) :
    val_main_v11 (F := Ideal) x0 x1 = reflect x0 x1 := by
  funext i
  obtain ⟨r, q, rfl⟩ : ∃ (r : Fin 8192) (q : Fin 4096), i = ix2 r q := ⟨i 0, i 1, eq_ix2 i⟩
  rw [val_main_v11_apply, val_main_v10_apply, val_main_v7_apply, val_main_v6_apply, val_main_cst_1_apply,
    val_main_v9_apply, val_main_v8_apply, val_main_v2_apply, val_main_v5_apply, val_main_v1_apply, val_main_v4_apply,
    val_main_cst_apply, val_main_cst_0_apply]
  simp only [val_main_v0_apply, val_main_v3_apply, sum_idx_vz, sum_idx_vv, Ideal.ofBits_def, Ideal.subf_def, Ideal.mulf_def,
    Ideal.hostDivf_def, Ideal.ofBits_zero_f32, zero_add]
  exact congrArg (x1 (ix2 r q) - ·) (scale_regroup _ _)

end Cert.ReferenceIdeal.RefValue

end
-- ==== Proof.BlockReflect.lean ====
/-
  What the kernel leaves in one block of its output, entry by entry.  The body loads the v block and the z
  block (256 rows, all 4096 columns), sums v*z and v*v along each row, divides, doubles, spreads the row's
  number back along the row, multiplies by v and subtracts from z.  At entry (p, q) of the block that is the
  reflection of `Reflect.lean` taken of the two BLOCKS: z - v * (2 * (row p's v.z / row p's v.v)).
-/
import proofs.«163049_j2602750181657_1_alg».proof.Proof.Gen.KernelIdeal.Value
import proofs.«163049_j2602750181657_1_alg».proof.Proof.Reflect
import Idealize.ShloMosaic.PureOps.Ideal.Laws
import Idealize.ShloMosaic.Lib.ValueIdx

noncomputable section

open Idealize.ShloMosaic Idealize.ShloMosaic.ValueIdx
open scoped BigOperators

namespace Cert.KernelIdeal.BlockValue

open Cert.KernelIdeal Cert.KernelIdeal.Gen Cert.KernelIdeal.Value Cert.Reflect

/-- The lane sum of a [256, 4096] block along its rows, read at row p: the sum over the 4096 columns. -/
theorem rowsum_apply (a : FVec Ideal S256x4096 .f32) (hacc : (0x00000000#32 : BitVec 32) = 0x00000000#32) (p : Fin 256) :
    multiReduction (F := Ideal) .add [1] S256 a 0x00000000#32 reduces_S256x4096_S256 (.inl rfl) hacc (ix1 p)
      = ∑ k : Fin 4096, a (ix2 p k) := by
  refine (Ideal.multiReduction_add_single a 0x00000000#32 reduces_S256x4096_S256 (.inl rfl) hacc (ix1 p)).trans ?_
  refine Finset.sum_congr rfl fun k _ => congrArg a (funext fun c => Fin.ext ?_)
  match c with
  | ⟨0, _⟩ => rfl
  | ⟨1, _⟩ => rfl

/-- The block the body stores, at entry (p, q): the reflection of the loaded v block `vb` and z block `zb`. -/
theorem block_apply (zb vb : Vec Ideal S256x4096 .f32) (p : Fin 256) (q : Fin 4096) :
    E2 (F := Ideal) zb vb (ix2 p q) = reflectAt vb zb p q := by
  have e0 : ix2_0 (ix2 p q) = ix2 p q := funext fun a => Fin.ext (by match a with | ⟨0, _⟩ => rfl | ⟨1, _⟩ => rfl)
  have e1 : ix2_1 (ix2 p q) = ix2 p q := funext fun a => Fin.ext (by match a with | ⟨0, _⟩ => rfl | ⟨1, _⟩ => rfl)
  have e2 : ix2_2 (ix2 p q) = ix1 p := funext fun a => Fin.ext (by match a with | ⟨0, _⟩ => rfl)
  have e3 : ix2_3 (ix2 p q) = ix1 p := funext fun a => Fin.ext (by match a with | ⟨0, _⟩ => rfl)
  unfold E2
  rw [e0, e1, e2, e3]
  unfold reflectAt coef
  exact congrArg₂ (fun s n => zb (ix2 p q) - vb (ix2 p q) * (two * Ideal.div s n))
    (rowsum_apply (mulf vb zb) _ p) (rowsum_apply (mulf vb vb) _ p)

theorem hz : (![0, 0] : Fin 2 → Nat) = fun _ => 0 := funext fun a => by fin_cases a <;> rfl

/-- So the body's result for the output window, as a function of the two loaded blocks, is their reflection,
    entry by entry: the one store covers the whole block, and the loads read the whole blocks. -/
theorem out_apply (vb zb : Vec Ideal S256x4096 .f32) (p : Fin 256) (q : Fin 4096) :
    out0_2 (F := Ideal) vb zb (ix2 p q) = reflectAt vb zb p q := by
  unfold out0_2
  refine (canon2_eq (F := Ideal) (View.ld zb r0_0) (View.ld vb r0_0) (ix2 p q)).trans ?_
  rw [View.ld_unit_zero (S := S256x4096) hz, View.ld_unit_zero (S := S256x4096) hz]
  exact block_apply zb vb p q

end Cert.KernelIdeal.BlockValue

end
-- ==== Proof.ArrayReflect.lean ====
/-
  From blocks to the array.  The grid has 32 points; point t stages rows 256 t .. 256 t + 255 (all 4096
  columns) of v, of z and of the output — the three windows move together, block index (t, 0).  So entry
  (p, q) of point t's blocks is entry (256 t + p, q) of the arrays, the reflection of the two blocks at
  (p, q) is the reflection of the two whole arrays at (256 t + p, q) (a row's coefficient depends on that row
  alone, and a block holds whole rows), every point writes its block back, and row r of the output lies in
  point r / 256's block: the 32 blocks tile the array, which therefore ends holding the reflection of the
  argument arrays everywhere.
-/
import proofs.«163049_j2602750181657_1_alg».proof.Proof.Gen.KernelIdeal.Value
import proofs.«163049_j2602750181657_1_alg».proof.Proof.BlockReflect
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value Cert.KernelIdeal.BlockValue Cert.Reflect

variable (m : (ℓ : Loc nD τ sig) → Buf (Elt Ideal) ℓ) (ρ : Dev nD → PrngReg)

/-- The three index maps over the grid: point t's block is block (t, 0) of each array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The two argument arrays and, at a grid point, their staged blocks, at their literal types. -/
abbrev varr (c : Dev nD) : S8192x4096.Idx → EReal := m ((c : Thread nD τ).loc main_arg0)
abbrev zarr (c : Dev nD) : S8192x4096.Idx → EReal := m ((c : Thread nD τ).loc main_arg1)
abbrev vblk (c : Dev nD) (t : Fin cfg0.N) : Vec Ideal S256x4096 .f32 := iblk m c 0 t
abbrev zblk (c : Dev nD) (t : Fin cfg0.N) : Vec Ideal S256x4096 .f32 := iblk m c 1 t

/-- Entry (p, k) of point t's v block is entry (256 t + p, k) of v. -/
theorem vblk_apply (c : Dev nD) (t : Fin cfg0.N) (p : Fin 256) (k : Fin 4096) (r : Fin 8192) (hr : r.val = 256 * t.val + p.val) :
    vblk m c t (ix2 p k) = varr m c (ix2 r k) := by
  obtain ⟨h0, h1, -, -, -, -⟩ := idx_facts t
  unfold vblk varr iblk
  rw [View.read_apply]
  show V m c main_arg0 _ = m (c.tc.loc main_arg0) _
  unfold V
  congr 1
  funext a
  apply Fin.ext
  match a with
  | ⟨0, _⟩ => show win0_0.index t 0 * 256 + 1 * p.val = r.val; rw [h0, hr]; omega
  | ⟨1, _⟩ => show win0_0.index t 1 * 4096 + 1 * k.val = k.val; rw [h1]; omega

/-- Entry (p, k) of point t's z block is entry (256 t + p, k) of z. -/
theorem zblk_apply (c : Dev nD) (t : Fin cfg0.N) (p : Fin 256) (k : Fin 4096) (r : Fin 8192) (hr : r.val = 256 * t.val + p.val) :
    zblk m c t (ix2 p k) = zarr m c (ix2 r k) := by
  obtain ⟨-, -, h0, h1, -, -⟩ := idx_facts t
  unfold zblk zarr iblk
  rw [View.read_apply]
  show V m c main_arg1 _ = m (c.tc.loc main_arg1) _
  unfold V
  congr 1
  funext a
  apply Fin.ext
  match a with
  | ⟨0, _⟩ => show win0_1.index t 0 * 256 + 1 * p.val = r.val; rw [h0, hr]; omega
  | ⟨1, _⟩ => show win0_1.index t 1 * 4096 + 1 * k.val = k.val; rw [h1]; omega

/-- What point t writes back is block t of the reflection of the two argument arrays. -/
theorem flushed_eq (c : Dev nD) (t : Fin cfg0.N) :
    (dats m 0 c).flushed 2 t = ((cfg0.win 2).blk t).view.read (Elt Ideal) (reflect (varr m c) (zarr m c)) := by
  obtain ⟨-, -, -, -, h20, h21⟩ := idx_facts t
  have ht : t.val < 32 := lt_of_lt_of_eq t.isLt (show cfg0.N = 32 from N_0)
  rw [Value.flushed2]
  funext j
  obtain ⟨p, q, rfl⟩ : ∃ (p : Fin 256) (q : Fin 4096), j = ix2 p q := ⟨j 0, j 1, eq_ix2 j⟩
  have hr : 256 * t.val + p.val < 8192 := by have := p.isLt; omega
  show out0_2 (vblk m c t) (zblk m c t) (ix2 p q) = reflect (varr m c) (zarr m c) (((cfg0.win 2).blk t).view.emb (ix2 p q))
  have hemb : ((cfg0.win 2).blk t).view.emb (ix2 p q) = ix2 (⟨256 * t.val + p.val, hr⟩ : Fin 8192) q := by
    funext a
    apply Fin.ext
    match a with
    | ⟨0, _⟩ => show win0_2.index t 0 * 256 + 1 * p.val = 256 * t.val + p.val; rw [h20]; omega
    | ⟨1, _⟩ => show win0_2.index t 1 * 4096 + 1 * q.val = q.val; rw [h21]; omega
  rw [hemb]
  refine (out_apply (vblk m c t) (zblk m c t) p q).trans ?_
  exact reflectAt_congr (vblk m c t) (zblk m c t) (varr m c) (zarr m c) p ⟨256 * t.val + p.val, hr⟩ q
    (fun k => vblk_apply m c t p k ⟨256 * t.val + p.val, hr⟩ rfl) (fun k => zblk_apply m c t p k ⟨256 * t.val + p.val, hr⟩ rfl)

/-- An entry of the array is in point t's block iff each coordinate is in the block's range on its axis. -/
theorem mem_blk (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every entry of the output lies in some point's block: row r in point r / 256's. -/
theorem cover (i : S8192x4096.Idx) : ∃ t : Fin cfg0.N, (cfg0.win 2).flush t = true ∧ i ∈ ((cfg0.win 2).blk t).view.set := by
  have hN : cfg0.N = 32 := N_0
  have hi0 : (i 0).val < 8192 := (i 0).isLt
  have hi1 : (i 1).val < 4096 := (i 1).isLt
  have ht : (i 0).val / 256 < cfg0.N := by rw [hN]; omega
  obtain ⟨-, -, -, -, h20, h21⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ 0 * 256 ≤ (i 0).val ∧ (i 0).val < win0_2.index ⟨(i 0).val / 256, ht⟩ 0 * 256 + 256
    rw [h20]; show (i 0).val / 256 * 256 ≤ (i 0).val ∧ (i 0).val < (i 0).val / 256 * 256 + 256; omega
  | ⟨1, _⟩ =>
    show win0_2.index ⟨(i 0).val / 256, ht⟩ 1 * 4096 ≤ (i 1).val ∧ (i 1).val < win0_2.index ⟨(i 0).val / 256, ht⟩ 1 * 4096 + 4096
    rw [h21]; omega

/-- So the output array ends holding the reflection of the argument arrays. -/
theorem final (c : Dev nD) : (dats m 0 c).arrAt 2 cfg0.N = reflect (varr m c) (zarr m c) :=
  (dats m 0 c).arrAt_eq_of_cover 2 (reflect (varr m c) (zarr m c)) (fun t _ => flushed_eq m c t) cover

/-- The kernel's run, read: the result array at the reflection of the arguments, the arguments unchanged. -/
theorem run : θ_run defs (onTc (τ := τ) (main (F := Ideal))) ⟨m, fun _ => 0, ρ⟩ fun r => ∀ c : Dev nD,
      r.2.mem ((c : Thread nD τ).loc main_v0) = reflect (varr m c) (zarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  A Householder reflection, row by row: for v, z of shape [8192, 4096],
      out[r, c] = z[r, c] - 2 * v[r, c] * (v[r, :] . z[r, :]) / (v[r, :] . v[r, :]).
  The kernel walks 32 blocks of 256 whole rows and, inside a block, multiplies v by (2 * quotient); the
  reference forms (2 * v) first and multiplies by the quotient.  Over the extended reals both are the one
  function `Cert.Reflect.reflect` of the two argument arrays:
    * the reference's fifteen host operations read at an entry are that function with the product grouped the
      other way (`RefValue.reference_eq`, by commutativity and associativity of the product — no finiteness);
    * the kernel's stored block at an entry is the reflection of its two loaded blocks (`BlockValue.out_apply`),
      which is the reflection of the whole arrays at the entry the block entry came from, because a row's
      coefficient depends on that row alone and a block holds whole rows; the 32 blocks tile the output
      (`ArrayValue.final`).
  The three frames are the programs' runs with the value dropped; the idealization rewrote nothing, so
  `preserves` has no conjunct.
-/
import proofs.«163049_j2602750181657_1_alg».proof.Defs
import proofs.«163049_j2602750181657_1_alg».proof.Proof.Gen.Kernel
import proofs.«163049_j2602750181657_1_alg».proof.Proof.Gen.Kernel.Skeleton
import proofs.«163049_j2602750181657_1_alg».proof.Proof.Gen.Kernel.Launch
import proofs.«163049_j2602750181657_1_alg».proof.Proof.Gen.Kernel.Points
import proofs.«163049_j2602750181657_1_alg».proof.Proof.Gen.Kernel.Frame
import proofs.«163049_j2602750181657_1_alg».proof.Proof.Gen.KernelIdeal
import proofs.«163049_j2602750181657_1_alg».proof.Proof.Gen.KernelIdeal.Skeleton
import proofs.«163049_j2602750181657_1_alg».proof.Proof.Gen.KernelIdeal.Launch
import proofs.«163049_j2602750181657_1_alg».proof.Proof.Gen.KernelIdeal.Points
import proofs.«163049_j2602750181657_1_alg».proof.Proof.Gen.KernelIdeal.Frame
import proofs.«163049_j2602750181657_1_alg».proof.Proof.Gen.ReferenceIdeal
import proofs.«163049_j2602750181657_1_alg».proof.Proof.Gen.Pre_finite_inputs
import proofs.«163049_j2602750181657_1_alg».proof.Proof.Gen.KernelIdeal.Value
import proofs.«163049_j2602750181657_1_alg».proof.Proof.Gen.ReferenceIdeal.Run
import proofs.«163049_j2602750181657_1_alg».proof.Proof.Gen.ReferenceIdeal.Read
import proofs.«163049_j2602750181657_1_alg».proof.Proof.Reflect
import proofs.«163049_j2602750181657_1_alg».proof.Proof.RefReflect
import proofs.«163049_j2602750181657_1_alg».proof.Proof.BlockReflect
import proofs.«163049_j2602750181657_1_alg».proof.Proof.ArrayReflect
import Idealize.ShloMosaic.Adequacy
import Idealize.ShloMosaic.Init

noncomputable section

namespace Cert.Proof

open Idealize.ShloMosaic Idealize.SL.Sem Cert.Kernel

/-- Both idealized programs end with the result array at the reflection of the (agreeing) argument arrays. -/
theorem algebraic : Cert.algebraic_KernelIdeal_ReferenceIdeal := by
  intro m ρ m' ρ' _ hagree
  refine ⟨fun c => Cert.Reflect.reflect (Cert.KernelIdeal.ArrayValue.varr m c) (Cert.KernelIdeal.ArrayValue.zarr m c),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
